-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1280x512 : Shape := ⟨2, ![1280, 512]⟩
abbrev S8x512 : Shape := ⟨2, ![8, 512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1280x512 : S_.BroadcastsInDim S1280x512 (![] : Fin 0 → Fin S1280x512.rank)
  reducesTo_S1280x512_S_d0_1 : S1280x512.ReducesTo [0, 1] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S32768x256 .f32) (main_arg1 : FVec F S1280x512 .f32) (main_arg2 : FVec F S8x512 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1280x512 .f32 := Host.absf main_arg1
  let main_cst_0 : FVec F S_ .f32 := constant S_ .f32 0x7F800000#32
  let main_v5 : FVec F S1280x512 .f32 := broadcastInDim S1280x512 ![] bcast_S_S1280x512 main_cst_0
  let main_v6 : IVec S1280x512 1 := cmpf .olt main_v4 main_v5
  let main_c_1 : IVec S_ 1 := constantI S_ 1 1#1
  let main_v7 : IVec S_ 1 := (fun x v => Host.reduce IntOp.andi x v reducesTo_S1280x512_S_d0_1 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S32768x256 : Shape := ⟨2, ![32768, 256]⟩
abbrev S1280x512 : Shape := ⟨2, ![1280, 512]⟩
abbrev S8x512 : Shape := ⟨2, ![8, 512]⟩
abbrev S256x512 : Shape := ⟨2, ![256, 512]⟩
abbrev S512x512 : Shape := ⟨2, ![512, 512]⟩
abbrev S512x128 : Shape := ⟨2, ![512, 128]⟩
abbrev S1x512 : Shape := ⟨2, ![1, 512]⟩
abbrev S1x128 : Shape := ⟨2, ![1, 128]⟩
abbrev S32768x128 : Shape := ⟨2, ![32768, 128]⟩
abbrev S4096x256 : Shape := ⟨2, ![4096, 256]⟩
abbrev S4096x128 : Shape := ⟨2, ![4096, 128]⟩
abbrev S4096x512 : Shape := ⟨2, ![4096, 512]⟩

abbrev nBuf : Space → Nat
  | .hbm => 15
  | .vmem => 10
  | .smem => 0
  | _ => 0

abbrev bufTy : (tb : Table) → Fin (tcTables nBuf tb) → BufTy
  | .hbm, ⟨0, _⟩ => ⟨S32768x256, .f32⟩
  | .hbm, ⟨1, _⟩ => ⟨S1280x512, .f32⟩
  | .hbm, ⟨2, _⟩ => ⟨S8x512, .f32⟩
  | .hbm, ⟨3, _⟩ => ⟨S256x512, .f32⟩
  | .hbm, ⟨4, _⟩ => ⟨S256x512, .bf16⟩
  | .hbm, ⟨5, _⟩ => ⟨S512x512, .f32⟩
  | .hbm, ⟨6, _⟩ => ⟨S512x512, .bf16⟩
  | .hbm, ⟨7, _⟩ => ⟨S512x128, .f32⟩
  | .hbm, ⟨8, _⟩ => ⟨S512x128, .bf16⟩
  | .hbm, ⟨9, _⟩ => ⟨S1x512, .f32⟩
  | .hbm, ⟨10, _⟩ => ⟨S1x512, .bf16⟩
  | .hbm, ⟨11, _⟩ => ⟨S1x512, .f32⟩
  | .hbm, ⟨12, _⟩ => ⟨S1x512, .bf16⟩
  | .hbm, ⟨13, _⟩ => ⟨S1x128, .f32⟩
  | .hbm, ⟨14, _⟩ => ⟨S32768x128, .f32⟩
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S512x512, .bf16⟩
  | .local _ .vmem, ⟨4, _⟩ => ⟨S512x128, .bf16⟩
  | .local _ .vmem, ⟨5, _⟩ => ⟨S1x512, .bf16⟩
  | .local _ .vmem, ⟨6, _⟩ => ⟨S1x512, .bf16⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1280x512_S256x512_0_0 : S1280x512.Slices ![0, 0] S256x512
  bitsLt_bf16_f32 : FTy.bits .bf16 < FTy.bits .f32
  slices_S1280x512_S512x512_256_0 : S1280x512.Slices ![256, 0] S512x512
  slices_S1280x512_S512x128_768_0 : S1280x512.Slices ![768, 0] S512x128
  slices_S8x512_S1x512_0_0 : S8x512.Slices ![0, 0] S1x512
  slices_S8x512_S1x512_1_0 : S8x512.Slices ![1, 0] S1x512
  slices_S8x512_S1x128_2_0 : S8x512.Slices ![2, 0] S1x128
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  dot_S4096x256_S256x512_S4096x512_1_0_0_1_n_n_wf : DotDims.WF S4096x256 S256x512 S4096x512 [1] [0] [0] [1] [] []
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .bf16 = 32 ∨ (Rect.block (s := S1x512) S1x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .bf16 = 32 ∨ (Rect.block (s := S1x512) S1x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S32768x128.size a
  hwx0_7 : ∀ i : grid0.Coords, EltTy.bits .f32 = 32 ∨ (Rect.block (s := S32768x128) S4096x128.size (cc0_transform_7 i) (hinb0_7 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x256 : Shape := ⟨2, ![32768, 256]⟩
abbrev S1280x512 : Shape := ⟨2, ![1280, 512]⟩
abbrev S8x512 : Shape := ⟨2, ![8, 512]⟩
abbrev S32768x512 : Shape := ⟨2, ![32768, 512]⟩
abbrev S256x256 : Shape := ⟨2, ![256, 256]⟩
abbrev S256x512 : Shape := ⟨2, ![256, 512]⟩
abbrev S512x512 : Shape := ⟨2, ![512, 512]⟩
abbrev S1x512 : Shape := ⟨2, ![1, 512]⟩
abbrev S32768x128 : Shape := ⟨2, ![32768, 128]⟩

abbrev nBuf : Space → Nat
  | .hbm => 5
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S1280x512, .f32⟩
  | .hbm, ⟨2, _⟩ => ⟨S8x512, .f32⟩
  | .hbm, ⟨3, _⟩ => ⟨S32768x512, .f32⟩
  | .hbm, ⟨4, _⟩ => ⟨S32768x128, .f32⟩
  | .local _ .vmem, ⟨0, _⟩ => ⟨S256x256, .f32⟩
  | .local _ .vmem, ⟨1, _⟩ => ⟨S256x256, .f32⟩
  | .local _ .vmem, ⟨2, _⟩ => ⟨S1280x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x256_S256x256_0_0 : ∀ a, (![0, 0] : Fin 2 → Nat) a + S256x256.size a ≤ S256x256.size a
  h_S256x256 : 0 < S256x256.numel
  inb_S1280x512_S256x512_0_0 : ∀ a, (![0, 0] : Fin 2 → Nat) a + S256x512.size a ≤ S1280x512.size a
  h_S256x512 : 0 < S256x512.numel
  inb_S1280x512_S512x512_256_0 : ∀ a, (![256, 0] : Fin 2 → Nat) a + S512x512.size a ≤ S1280x512.size a
  h_S512x512 : 0 < S512x512.numel
  inb_S1280x512_S512x512_768_0 : ∀ a, (![768, 0] : Fin 2 → Nat) a + S512x512.size a ≤ S1280x512.size a
  inb_S8x512_S1x512_0_0 : ∀ a, (![0, 0] : Fin 2 → Nat) a + S1x512.size a ≤ S8x512.size a
  h_S1x512 : 0 < S1x512.numel
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  broadcasts_S1x512_S256x512 : S1x512.Broadcasts S256x512
  inb_S256x512_S256x512_0_0 : ∀ a, (![0, 0] : Fin 2 → Nat) a + S256x512.size a ≤ S256x512.size a
  slices_S32768x512_S32768x128_0_0 : S32768x512.Slices ![0, 0] S32768x128
  dot_S256x256_S256x512_S256x512_1_0_0_1_n_n_wf : DotDims.WF S256x256 S256x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S32768x256.size a
  hwx0_0 : ∀ i : grid0.Coords, EltTy.bits .f32 = 32 ∨ (Rect.block (s := S32768x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S1280x512.size a
  hwx0_1 : ∀ i : grid0.Coords, EltTy.bits .f32 = 32 ∨ (Rect.block (s := S1280x512) S1280x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S32768x512.size a
  hwx0_3 : ∀ i : grid0.Coords, EltTy.bits .f32 = 32 ∨ (Rect.block (s := S32768x512) S256x512.size (cc0_transform_3 i) (hinb0_3 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Spec.lean ====
/-
  The actor network as one function of its three arrays, entry by entry, over the extended reals.

  A state row `x[r, ·]` of 256 entries passes through two dense layers of 512 units, each a
  weighted sum plus a bias clamped below at zero, and a head of 128 units, a weighted sum plus a
  bias under the hyperbolic tangent. All weights sit in one slab `W` of 1280 rows: rows 0–255 the
  first layer, rows 256–767 the second, rows 768–1279 the head (its first 128 columns); the
  biases are rows 0, 1, 2 of `B`:
      h₁[r, j] = max (∑ i, x[r, i] · W[i, j] + B[0, j]) 0
      h₂[r, k] = max (∑ j, h₁[r, j] · W[256 + j, k] + B[1, k]) 0
      out[r, q] = tanh (∑ k, h₂[r, k] · W[768 + k, q] + B[2, q]).
  An output entry depends on its own row of `x` only and on its own column of the head only, so any
  tiling of the rows, and a head computed with more columns and cut afterwards, give this function.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«132379_g2000001498861371_pallasbulk_379_10_alg».proof.Proof.LibDot2

noncomputable section

open scoped BigOperators

namespace Cert.Actor

open Idealize.ShloMosaic Idealize.ShloMosaic.ValueIdx

/-- One hidden unit: the weighted sum of the layer's inputs plus the unit's bias, clamped below at zero. -/
def hid {K : Nat} (a : Fin K → EReal) (w : Fin K → Fin 512 → EReal) (b : Fin 512 → EReal) (j : Fin 512) : EReal :=
  max ((∑ i : Fin K, a i * w i j) + b j) 0

/-- One output entry from its state row `xr`, the two hidden layers' weights and biases, and the head's
    own column `w3q` and bias `b3q`. -/
def rowOut (xr : Fin 256 → EReal) (w1 : Fin 256 → Fin 512 → EReal) (b1 : Fin 512 → EReal)
    (w2 : Fin 512 → Fin 512 → EReal) (b2 : Fin 512 → EReal) (w3q : Fin 512 → EReal) (b3q : EReal) : EReal :=
  Ideal.tanh ((∑ k : Fin 512, hid (hid xr w1 b1) w2 b2 k * w3q k) + b3q)

/-- Row `i` of the first layer's weights in the slab. -/
def row1 (i : Fin 256) : Fin 1280 := ⟨i.val, by have := i.isLt; omega⟩
/-- Row `j` of the second layer's weights in the slab. -/
def row2 (j : Fin 512) : Fin 1280 := ⟨256 + j.val, by have := j.isLt; omega⟩
/-- Row `k` of the head's weights in the slab. -/
def row3 (k : Fin 512) : Fin 1280 := ⟨768 + k.val, by have := k.isLt; omega⟩
/-- Head column `q` among the slab's 512 columns. -/
def col (q : Fin 128) : Fin 512 := ⟨q.val, by have := q.isLt; omega⟩

/-- The network's output for state row `r` and head column `cq` of the slab. -/
def outAt (x : (⟨2, ![32768, 256]⟩ : Shape).Idx → EReal) (W : (⟨2, ![1280, 512]⟩ : Shape).Idx → EReal)
    (B : (⟨2, ![8, 512]⟩ : Shape).Idx → EReal) (r : Fin 32768) (cq : Fin 512) : EReal :=
  rowOut (fun i => x (ix2 r i)) (fun i k => W (ix2 (row1 i) k)) (fun k => B (ix2 (0 : Fin 8) k))
    (fun i k => W (ix2 (row2 i) k)) (fun k => B (ix2 (1 : Fin 8) k))
    (fun k => W (ix2 (row3 k) cq)) (B (ix2 (2 : Fin 8) cq))

/-- The network's output array as a function of the three argument arrays. -/
def G (x : (⟨2, ![32768, 256]⟩ : Shape).Idx → EReal) (W : (⟨2, ![1280, 512]⟩ : Shape).Idx → EReal)
    (B : (⟨2, ![8, 512]⟩ : Shape).Idx → EReal) : (⟨2, ![32768, 128]⟩ : Shape).Idx → EReal := fun j =>
  outAt x W B (j 0) (col (j 1))

/-- The same network with the head computed for all 512 columns of the slab: the array a full-width head leaves
    before its columns are cut to the first 128. -/
def Gwide (x : (⟨2, ![32768, 256]⟩ : Shape).Idx → EReal) (W : (⟨2, ![1280, 512]⟩ : Shape).Idx → EReal)
    (B : (⟨2, ![8, 512]⟩ : Shape).Idx → EReal) : (⟨2, ![32768, 512]⟩ : Shape).Idx → EReal := fun j =>
  outAt x W B (j 0) (j 1)

/-- Cutting the full-width output to its first 128 columns gives the network's output: an output entry uses its own
    head column only. -/
theorem slice_Gwide (x : (⟨2, ![32768, 256]⟩ : Shape).Idx → EReal) (W : (⟨2, ![1280, 512]⟩ : Shape).Idx → EReal)
    (B : (⟨2, ![8, 512]⟩ : Shape).Idx → EReal)
    (h : (⟨2, ![32768, 512]⟩ : Shape).Slices ![0, 0] ⟨2, ![32768, 128]⟩) :
    extractStridedSlice ⟨2, ![32768, 128]⟩ ![0, 0] (Gwide x W B) h = G x W B := by
  funext j
  obtain ⟨p, q, rfl⟩ : ∃ (p : Fin 32768) (q : Fin 128), j = ix2 p q := ⟨j 0, j 1, eq_ix2 j⟩
  unfold extractStridedSlice Gwide G
  show outAt x W B _ _ = outAt x W B _ _
  congr 1 <;> apply Fin.ext
  · show 0 + p.val = p.val; omega
  · show 0 + q.val = q.val; omega

/-- A dense layer of 512 units on a block of `M` rows, read at `(p, q)`: the product accumulated into zero plus the
    bias row broadcast over the block, clamped at a zero `z`, is the hidden unit `q` of row `p`. -/
theorem relu_layer_apply {M K : Nat} {φ₁ φ₂ : FTy}
    (wf : DotDims.WF ⟨2, ![M, K]⟩ ⟨2, ![K, 512]⟩ ⟨2, ![M, 512]⟩ [1] [0] [0] [1] [] [])
    (hb : (⟨2, ![1, 512]⟩ : Shape).Broadcasts ⟨2, ![M, 512]⟩)
    (a : FVec Ideal ⟨2, ![M, K]⟩ φ₁) (w : FVec Ideal ⟨2, ![K, 512]⟩ φ₂)
    (b : (⟨2, ![1, 512]⟩ : Shape).Idx → EReal) (z : EReal) (hz : z = 0) (p : Fin M) (q : Fin 512) :
    max (FloatOps.matmul (Dot2.mmDims M K 512 wf) none a w (constant ⟨2, ![M, 512]⟩ .f32 0x00000000#32) (ix2 p q)
        + broadcastTo ⟨2, ![M, 512]⟩ b hb (ix2 p q)) z
      = hid (fun i => a (ix2 p i)) (fun i j => w (ix2 i j)) (fun j => b (ix2 (0 : Fin 1) j)) q := by
  rw [Dot2.matmul_zero_mm_apply, broadcastTo_1b_ab_apply, hz]
  rfl

/-- The head on a block of `M` rows and `N` columns, read at `(p, q)`: the product accumulated into zero plus the
    bias row broadcast over the block. -/
theorem head_apply {M N : Nat} {φ₁ φ₂ : FTy}
    (wf : DotDims.WF ⟨2, ![M, 512]⟩ ⟨2, ![512, N]⟩ ⟨2, ![M, N]⟩ [1] [0] [0] [1] [] [])
    (hb : (⟨2, ![1, N]⟩ : Shape).Broadcasts ⟨2, ![M, N]⟩)
    (a : FVec Ideal ⟨2, ![M, 512]⟩ φ₁) (w : FVec Ideal ⟨2, ![512, N]⟩ φ₂)
    (b : (⟨2, ![1, N]⟩ : Shape).Idx → EReal) (p : Fin M) (q : Fin N) :
    FloatOps.matmul (Dot2.mmDims M 512 N wf) none a w (constant ⟨2, ![M, N]⟩ .f32 0x00000000#32) (ix2 p q)
        + broadcastTo ⟨2, ![M, N]⟩ b hb (ix2 p q)
      = (∑ k : Fin 512, a (ix2 p k) * w (ix2 k q)) + b (ix2 (0 : Fin 1) q) := by
  rw [Dot2.matmul_zero_mm_apply, broadcastTo_1b_ab_apply]

/-- The bf16 pattern of zero denotes the extended real zero. -/
theorem zero_bf16 : Ideal.ofBits .bf16 0x0000#16 = 0 := by simp [Ideal.ofBits, Ideal.ieee]

end Cert.Actor

end
-- ==== Proof.KernelBlocks.lean ====
/-
  What the tiled kernel's region finds in its arrays, and each window's block at a grid point read entry by entry
  in the three argument arrays.

  Before the region the two slabs are cut into the three weight matrices and the three bias rows (and their float
  format changed, which is the identity on the extended reals). The grid has 8 points; point `t` takes state rows
  `4096 t … 4096 t + 4095` and writes the same output rows; the weights and biases are whole arrays at every point.
-/
import proofs.«132379_g2000001498861371_pallasbulk_379_10_alg».proof.Proof.Gen.KernelIdeal.Frame
import proofs.«132379_g2000001498861371_pallasbulk_379_10_alg».proof.Proof.Spec
import Idealize.ShloMosaic.Lib.Pipeline.Value
import Idealize.ShloMosaic.Lib.StableHlo.Run
import Idealize.ShloMosaic.Lib.Tactic

noncomputable section
open scoped BigOperators
open Idealize.ShloMosaic Idealize.ShloMosaic.TcCoe Idealize.SL.Sem
open Idealize.ShloMosaic.Pipeline (Dat)

namespace Cert.KernelIdeal.Hand
open Cert.KernelIdeal Cert.KernelIdeal.Gen Idealize.ShloMosaic.ValueIdx Cert.Actor

variable (m : (ℓ : Loc nD τ sig) → Buf (Elt Ideal) ℓ) (ρ : Dev nD → PrngReg)

/-- The zero offsets of a whole-block access, however spelt. -/
theorem hz : (![0, 0] : Fin 2 → Nat) = fun _ => 0 := funext fun a => by fin_cases a <;> rfl

/-! ## Where each window's block sits at a grid point

The state rows and the output rows move together: point `t` takes rows `4096 t … 4096 t + 4095`; every weight
and bias window is its whole array at every point. -/

theorem idx_rows : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

theorem idx_params : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the region finds: slices of the two slabs (a change of float format is the identity) -/

theorem V_v1 (c : Dev nD) : (V m c main_v1 : S256x512.Idx → EReal)
    = extractStridedSlice S256x512 ![0, 0] (m ((c : Thread nD τ).loc main_arg1) : S1280x512.Idx → EReal) slices_S1280x512_S256x512_0_0 := by
  dsimp only [V, hostOps0]; after_results; rfl

theorem V_v3 (c : Dev nD) : (V m c main_v3 : S512x512.Idx → EReal)
    = extractStridedSlice S512x512 ![256, 0] (m ((c : Thread nD τ).loc main_arg1) : S1280x512.Idx → EReal) slices_S1280x512_S512x512_256_0 := by
  dsimp only [V, hostOps0]; after_results; rfl

theorem V_v5 (c : Dev nD) : (V m c main_v5 : S512x128.Idx → EReal)
    = extractStridedSlice S512x128 ![768, 0] (m ((c : Thread nD τ).loc main_arg1) : S1280x512.Idx → EReal) slices_S1280x512_S512x128_768_0 := by
  dsimp only [V, hostOps0]; after_results; rfl

theorem V_v7 (c : Dev nD) : (V m c main_v7 : S1x512.Idx → EReal)
    = extractStridedSlice S1x512 ![0, 0] (m ((c : Thread nD τ).loc main_arg2) : S8x512.Idx → EReal) slices_S8x512_S1x512_0_0 := by
  dsimp only [V, hostOps0]; after_results; rfl

theorem V_v9 (c : Dev nD) : (V m c main_v9 : S1x512.Idx → EReal)
    = extractStridedSlice S1x512 ![1, 0] (m ((c : Thread nD τ).loc main_arg2) : S8x512.Idx → EReal) slices_S8x512_S1x512_1_0 := by
  dsimp only [V, hostOps0]; after_results; rfl

theorem V_v10 (c : Dev nD) : (V m c main_v10 : S1x128.Idx → EReal)
    = extractStridedSlice S1x128 ![2, 0] (m ((c : Thread nD τ).loc main_arg2) : S8x512.Idx → EReal) slices_S8x512_S1x128_2_0 := by
  dsimp only [V, hostOps0]; after_results

/-! ## Each window's block at a point, entry by entry, in the argument arrays -/

/-- Row `p` of the state block at point `t` is row `4096 t + p` of the states. -/
theorem x_block (c : Dev nD) (t : Fin cfg0.N) (p : Fin 4096) (i : Fin 256) (r : Fin 32768) (hr : r.val = 4096 * t.val + p.val) :
    (iblk m c 0 t : S4096x256.Idx → EReal) (ix2 p i)
      = (m ((c : Thread nD τ).loc main_arg0) : S32768x256.Idx → EReal) (ix2 r i) := by
  obtain ⟨h0, h1, -, -⟩ := idx_rows t
  unfold iblk
  rw [View.read_apply]
  show V m c main_arg0 _ = _
  rw [V_main_arg0 m c]
  congr 1
  funext a
  apply Fin.ext
  match a with
  | ⟨0, _⟩ => show win0_0.index t (0 : Fin 2) * 4096 + 1 * p.val = r.val; rw [h0, hr]; omega
  | ⟨1, _⟩ => show win0_0.index t (1 : Fin 2) * 256 + 1 * i.val = i.val; rw [h1]; omega

/-- The first layer's weights at a point: rows 0–255 of the slab. -/
theorem w1_block (c : Dev nD) (t : Fin cfg0.N) (i : Fin 256) (j : Fin 512) :
    (iblk m c 1 t : S256x512.Idx → EReal) (ix2 i j)
      = (m ((c : Thread nD τ).loc main_arg1) : S1280x512.Idx → EReal) (ix2 (row1 i) j) := by
  obtain ⟨a0, a1, b0, b1, c0, c1, d0, d1, e0, e1, f0, f1⟩ := idx_params t
  unfold iblk
  rw [View.read_apply]
  show (V m c main_v1 : S256x512.Idx → EReal) _ = _
  rw [V_v1 m c]
  refine extractStridedSlice_apply _ _ _ _ _ fun a => ?_
  match a with
  | ⟨0, _⟩ => show i.val = 0 + (win0_1.index t (0 : Fin 2) * 256 + 1 * i.val); rw [a0]; omega
  | ⟨1, _⟩ => show j.val = 0 + (win0_1.index t (1 : Fin 2) * 512 + 1 * j.val); rw [a1]; omega

/-- The second layer's weights at a point: rows 256–767 of the slab. -/
theorem w2_block (c : Dev nD) (t : Fin cfg0.N) (i : Fin 512) (j : Fin 512) :
    (iblk m c 2 t : S512x512.Idx → EReal) (ix2 i j)
      = (m ((c : Thread nD τ).loc main_arg1) : S1280x512.Idx → EReal) (ix2 (row2 i) j) := by
  obtain ⟨a0, a1, b0, b1, c0, c1, d0, d1, e0, e1, f0, f1⟩ := idx_params t
  unfold iblk
  rw [View.read_apply]
  show (V m c main_v3 : S512x512.Idx → EReal) _ = _
  rw [V_v3 m c]
  refine extractStridedSlice_apply _ _ _ _ _ fun a => ?_
  match a with
  | ⟨0, _⟩ => show 256 + i.val = 256 + (win0_2.index t (0 : Fin 2) * 512 + 1 * i.val); rw [b0]; omega
  | ⟨1, _⟩ => show j.val = 0 + (win0_2.index t (1 : Fin 2) * 512 + 1 * j.val); rw [b1]; omega

/-- The head's weights at a point: rows 768–1279 and the first 128 columns of the slab. -/
theorem w3_block (c : Dev nD) (t : Fin cfg0.N) (k : Fin 512) (q : Fin 128) :
    (iblk m c 3 t : S512x128.Idx → EReal) (ix2 k q)
      = (m ((c : Thread nD τ).loc main_arg1) : S1280x512.Idx → EReal) (ix2 (row3 k) (col q)) := by
  obtain ⟨a0, a1, b0, b1, c0, c1, d0, d1, e0, e1, f0, f1⟩ := idx_params t
  unfold iblk
  rw [View.read_apply]
  show (V m c main_v5 : S512x128.Idx → EReal) _ = _
  rw [V_v5 m c]
  refine extractStridedSlice_apply _ _ _ _ _ fun a => ?_
  match a with
  | ⟨0, _⟩ => show 768 + k.val = 768 + (win0_3.index t (0 : Fin 2) * 512 + 1 * k.val); rw [c0]; omega
  | ⟨1, _⟩ => show q.val = 0 + (win0_3.index t (1 : Fin 2) * 128 + 1 * q.val); rw [c1]; omega

/-- The first layer's biases at a point: row 0 of the bias slab. -/
theorem b1_block (c : Dev nD) (t : Fin cfg0.N) (j : Fin 512) :
    (iblk m c 4 t : S1x512.Idx → EReal) (ix2 (0 : Fin 1) j)
      = (m ((c : Thread nD τ).loc main_arg2) : S8x512.Idx → EReal) (ix2 (0 : Fin 8) j) := by
  obtain ⟨a0, a1, b0, b1, c0, c1, d0, d1, e0, e1, f0, f1⟩ := idx_params t
  unfold iblk
  rw [View.read_apply]
  show (V m c main_v7 : S1x512.Idx → EReal) _ = _
  rw [V_v7 m c]
  refine extractStridedSlice_apply _ _ _ _ _ fun a => ?_
  match a with
  | ⟨0, _⟩ => show 0 = 0 + (win0_4.index t (0 : Fin 2) * 1 + 1 * 0); rw [d0]
  | ⟨1, _⟩ => show j.val = 0 + (win0_4.index t (1 : Fin 2) * 512 + 1 * j.val); rw [d1]; omega

/-- The second layer's biases at a point: row 1 of the bias slab. -/
theorem b2_block (c : Dev nD) (t : Fin cfg0.N) (j : Fin 512) :
    (iblk m c 5 t : S1x512.Idx → EReal) (ix2 (0 : Fin 1) j)
      = (m ((c : Thread nD τ).loc main_arg2) : S8x512.Idx → EReal) (ix2 (1 : Fin 8) j) := by
  obtain ⟨a0, a1, b0, b1, c0, c1, d0, d1, e0, e1, f0, f1⟩ := idx_params t
  unfold iblk
  rw [View.read_apply]
  show (V m c main_v9 : S1x512.Idx → EReal) _ = _
  rw [V_v9 m c]
  refine extractStridedSlice_apply _ _ _ _ _ fun a => ?_
  match a with
  | ⟨0, _⟩ => show 1 = 1 + (win0_5.index t (0 : Fin 2) * 1 + 1 * 0); rw [e0]
  | ⟨1, _⟩ => show j.val = 0 + (win0_5.index t (1 : Fin 2) * 512 + 1 * j.val); rw [e1]; omega

/-- The head's biases at a point: row 2 of the bias slab, its first 128 columns. -/
theorem b3_block (c : Dev nD) (t : Fin cfg0.N) (q : Fin 128) :
    (iblk m c 6 t : S1x128.Idx → EReal) (ix2 (0 : Fin 1) q)
      = (m ((c : Thread nD τ).loc main_arg2) : S8x512.Idx → EReal) (ix2 (2 : Fin 8) (col q)) := by
  obtain ⟨a0, a1, b0, b1, c0, c1, d0, d1, e0, e1, f0, f1⟩ := idx_params t
  unfold iblk
  rw [View.read_apply]
  show (V m c main_v10 : S1x128.Idx → EReal) _ = _
  rw [V_v10 m c]
  refine extractStridedSlice_apply _ _ _ _ _ fun a => ?_
  match a with
  | ⟨0, _⟩ => show 2 = 2 + (win0_6.index t (0 : Fin 2) * 1 + 1 * 0); rw [f0]
  | ⟨1, _⟩ => show q.val = 0 + (win0_6.index t (1 : Fin 2) * 128 + 1 * q.val); rw [f1]; omega

end Cert.KernelIdeal.Hand

end
-- ==== Proof.KernelPay.lean ====
/-
  The block a grid point of the tiled kernel stores, read at an entry.

  The body multiplies its 4096 state rows by the first layer's weights, adds the bias row to every row and
  clamps at zero, does the same with the second layer, and stores the hyperbolic tangent of the head's product
  plus its bias row. The changes of float format between the steps are the identity on the extended reals, a
  shape cast to the same shape is the identity, and each product accumulated into zero is the plain sum over the
  contracted index; so entry `(p, q)` of the stored block is the network's output for the block's row `p` and head
  column `q` of the block's weights.
-/
import proofs.«132379_g2000001498861371_pallasbulk_379_10_alg».proof.Proof.Gen.KernelIdeal.Skeleton
import proofs.«132379_g2000001498861371_pallasbulk_379_10_alg».proof.Proof.Spec
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Actor

/-- The kernel body's stored block at `(p, q)`: the network's entry of the block's row `p` and head column `q`. -/
theorem pay_apply (v0 : Vec Ideal S4096x256 .f32) (v2 : Vec Ideal S256x512 .bf16) (v6 : Vec Ideal S1x512 .bf16)
    (v12 : Vec Ideal S512x512 .bf16) (v16 : Vec Ideal S1x512 .bf16) (v22 : Vec Ideal S512x128 .bf16)
    (v25 : Vec Ideal S1x128 .f32) (p : Fin 4096) (q : Fin 128) :
    k0_pay1 (F := Ideal) v0 v2 v6 v12 v16 v22 v25 (ix2 p q)
      = rowOut (fun i => v0 (ix2 p i)) (fun i j => v2 (ix2 i j)) (fun j => v6 (ix2 (0 : Fin 1) j))
          (fun i j => v12 (ix2 i j)) (fun j => v16 (ix2 (0 : Fin 1) j)) (fun k => v22 (ix2 k q)) (v25 (ix2 (0 : Fin 1) q)) := by
  unfold k0_pay1 rowOut
  simp only [shapeCast_self]
  show Ideal.tanh _ = Ideal.tanh _
  refine congrArg Ideal.tanh ?_
  refine (head_apply (φ₁ := .bf16) (φ₂ := .bf16) dot_S4096x512_S512x128_S4096x128_1_0_0_1_n_n_wf broadcasts_S1x128_S4096x128 _ v22 v25 p q).trans ?_
  refine congrArg (· + v25 (ix2 (0 : Fin 1) q)) (Finset.sum_congr rfl fun k _ => congrArg (· * v22 (ix2 k q)) ?_)
  refine (relu_layer_apply (φ₁ := .bf16) (φ₂ := .bf16) dot_S4096x512_S512x512_S4096x512_1_0_0_1_n_n_wf broadcasts_S1x512_S4096x512 _ v12 v16 _ zero_bf16 p k).trans ?_
  refine congrArg (fun a => hid a (fun i j => v12 (ix2 i j)) (fun j => v16 (ix2 (0 : Fin 1) j)) k) (funext fun j => ?_)
  exact relu_layer_apply (φ₁ := .bf16) (φ₂ := .bf16) dot_S4096x256_S256x512_S4096x512_1_0_0_1_n_n_wf broadcasts_S1x512_S4096x512 _ v2 v6 _ zero_bf16 p j

end Cert.KernelIdeal.Pay

end
-- ==== Proof.KernelValue.lean ====
/-
  The tiled kernel's output array after its run is the network's output of the three argument arrays.

  Point `t` of the grid stores a block of 4096 rows whose entry `(p, q)` is the network's output for the block's
  row `p`; the block's row `p` is state row `4096 t + p`, the weight and bias blocks are the slab's sections, and
  the block is written back to output rows `4096 t … 4096 t + 4095`. So every point writes its block of ONE function
  of the arguments, and the 8 blocks cover the 32768 output rows.
-/
import proofs.«132379_g2000001498861371_pallasbulk_379_10_alg».proof.Proof.Gen.KernelIdeal.Value
import proofs.«132379_g2000001498861371_pallasbulk_379_10_alg».proof.Proof.KernelBlocks
import proofs.«132379_g2000001498861371_pallasbulk_379_10_alg».proof.Proof.KernelPay

noncomputable section

open scoped BigOperators
open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.Actor

variable (m : (ℓ : Loc nD τ sig) → Buf (Elt Ideal) ℓ) (ρ : Dev nD → PrngReg)

/-- The network's output of the arrays core `c` was launched with. -/
abbrev result (c : Dev nD) : S32768x128.Idx → EReal :=
  G (m ((c : Thread nD τ).loc main_arg0)) (m ((c : Thread nD τ).loc main_arg1)) (m ((c : Thread nD τ).loc main_arg2))

/-- What point `t` writes back is block `t` of the network's output. -/
theorem flushed_eq (c : Dev nD) (t : Fin cfg0.N) :
    (dats m 0 c).flushed 7 t = ((cfg0.win 7).blk t).view.read (Elt Ideal) (result m c) := by
  obtain ⟨-, -, h0, h1⟩ := idx_rows t
  rw [flushed7]
  unfold out0_7
  rw [View.canon_unit_zero hz]
  simp only [View.ld_unit_zero (S := S4096x256) hz, View.ld_unit_zero (S := S256x512) hz,
    View.ld_unit_zero (S := S1x512) hz, View.ld_unit_zero (S := S512x512) hz,
    View.ld_unit_zero (S := S512x128) hz, View.ld_unit_zero (S := S1x128) hz]
  funext y
  obtain ⟨p, q, rfl⟩ : ∃ (p : Fin 4096) (q : Fin 128), y = ix2 p q := ⟨y 0, y 1, eq_ix2 y⟩
  have hr : 4096 * t.val + p.val < 32768 := by
    have := t.isLt; have hN : cfg0.N = 8 := N_0; have := p.isLt; omega
  have hemb : ((cfg0.win 7).blk t).view.emb (ix2 p q)
      = (ix2 (⟨4096 * t.val + p.val, hr⟩ : Fin 32768) q : S32768x128.Idx) := by
    funext a
    apply Fin.ext
    match a with
    | ⟨0, _⟩ => show win0_7.index t (0 : Fin 2) * 4096 + 1 * p.val = 4096 * t.val + p.val; rw [h0]; omega
    | ⟨1, _⟩ => show win0_7.index t (1 : Fin 2) * 128 + 1 * q.val = q.val; rw [h1]; omega
  show k0_pay1 (F := Ideal) (iblk m c 0 t) (iblk m c 1 t) (iblk m c 4 t) (iblk m c 2 t) (iblk m c 5 t)
      (iblk m c 3 t) (iblk m c 6 t) (ix2 p q) = result m c (((cfg0.win 7).blk t).view.emb (ix2 p q))
  rw [hemb]
  refine (Pay.pay_apply (iblk m c 0 t) (iblk m c 1 t) (iblk m c 4 t) (iblk m c 2 t) (iblk m c 5 t)
    (iblk m c 3 t) (iblk m c 6 t) p q).trans ?_
  show rowOut _ _ _ _ _ _ _ = rowOut _ _ _ _ _ _ _
  have e0 : (fun i : Fin 256 => (iblk m c 0 t : S4096x256.Idx → EReal) (ix2 p i))
      = fun i => (m ((c : Thread nD τ).loc main_arg0) : S32768x256.Idx → EReal) (ix2 (⟨4096 * t.val + p.val, hr⟩ : Fin 32768) i) :=
    funext fun i => x_block m c t p i _ rfl
  have e1 : (fun (i : Fin 256) (j : Fin 512) => (iblk m c 1 t : S256x512.Idx → EReal) (ix2 i j))
      = fun i j => (m ((c : Thread nD τ).loc main_arg1) : S1280x512.Idx → EReal) (ix2 (row1 i) j) :=
    funext fun i => funext fun j => w1_block m c t i j
  have e2 : (fun (i : Fin 512) (j : Fin 512) => (iblk m c 2 t : S512x512.Idx → EReal) (ix2 i j))
      = fun i j => (m ((c : Thread nD τ).loc main_arg1) : S1280x512.Idx → EReal) (ix2 (row2 i) j) :=
    funext fun i => funext fun j => w2_block m c t i j
  have e3 : (fun k : Fin 512 => (iblk m c 3 t : S512x128.Idx → EReal) (ix2 k q))
      = fun k => (m ((c : Thread nD τ).loc main_arg1) : S1280x512.Idx → EReal) (ix2 (row3 k) (col q)) :=
    funext fun k => w3_block m c t k q
  have e4 : (fun j : Fin 512 => (iblk m c 4 t : S1x512.Idx → EReal) (ix2 (0 : Fin 1) j))
      = fun j => (m ((c : Thread nD τ).loc main_arg2) : S8x512.Idx → EReal) (ix2 (0 : Fin 8) j) :=
    funext fun j => b1_block m c t j
  have e5 : (fun j : Fin 512 => (iblk m c 5 t : S1x512.Idx → EReal) (ix2 (0 : Fin 1) j))
      = fun j => (m ((c : Thread nD τ).loc main_arg2) : S8x512.Idx → EReal) (ix2 (1 : Fin 8) j) :=
    funext fun j => b2_block m c t j
  rw [e0, e1, e2, e3, e4, e5, b3_block m c t q]

/-- An index of the output array is in point `t`'s block iff its row is among the block's 4096 rows. -/
theorem mem_blk (t : Fin cfg0.N) (i : S32768x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v11).slice (win0_7.rect t)).set ↔ _
  rw [View.set_slice_whole, Rect.mem_set_unit]
  exact Iff.rfl

/-- The output array after the run is the network's output: row `r` is in the block of point `r / 4096`. -/
theorem final (c : Dev nD) : (dats m 0 c).arrAt 7 cfg0.N = result m c :=
  (dats m 0 c).arrAt_eq_of_cover 7 (result m c) (fun t _ => flushed_eq m c t) fun i => by
    have hN : cfg0.N = 8 := N_0
    have hi0 : (i 0).val < 32768 := (i 0).isLt
    have hi1 : (i 1).val < 128 := (i 1).isLt
    have ht : (i 0).val / 4096 < cfg0.N := by rw [hN]; omega
    obtain ⟨-, -, h0, h1⟩ := idx_rows ⟨(i 0).val / 4096, ht⟩
    refine ⟨⟨(i 0).val / 4096, ht⟩, flush0_7 _, ?_⟩
    rw [mem_blk]
    intro a
    match a with
    | ⟨0, _⟩ =>
      show win0_7.index ⟨(i 0).val / 4096, ht⟩ (0 : Fin 2) * 4096 ≤ (i 0).val
        ∧ (i 0).val < win0_7.index ⟨(i 0).val / 4096, ht⟩ (0 : Fin 2) * 4096 + 4096
      rw [h0]; show (i 0).val / 4096 * 4096 ≤ (i 0).val ∧ (i 0).val < (i 0).val / 4096 * 4096 + 4096; omega
    | ⟨1, _⟩ =>
      show win0_7.index ⟨(i 0).val / 4096, ht⟩ (1 : Fin 2) * 128 ≤ (i 1).val
        ∧ (i 1).val < win0_7.index ⟨(i 0).val / 4096, ht⟩ (1 : Fin 2) * 128 + 128
      rw [h1]; omega

/-- The kernel's run, read: the output array ends at the network's output, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Hand

end
-- ==== Proof.RefBlocks.lean ====
/-
  What the reference kernel's region finds in its arrays, each window's block at a grid point, and the body's
  loads of the weight and bias sections, read entry by entry in the three argument arrays.

  The region is entered with the arguments as launched. The grid has 128 points; point `t` takes state rows
  `256 t … 256 t + 255` and writes the same rows of a 512-column output; both slabs are whole at every point, and
  the body loads from them the three weight matrices (slab rows 0–255, 256–767, 768–1279) and the three bias rows
  (rows 0, 1, 2).
-/
import proofs.«132379_g2000001498861371_pallasbulk_379_10_alg».proof.Proof.Gen.ReferenceIdeal.Frame
import proofs.«132379_g2000001498861371_pallasbulk_379_10_alg».proof.Proof.Spec
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.ReferenceIdeal.Hand

open Cert.ReferenceIdeal Cert.ReferenceIdeal.Gen Idealize.ShloMosaic.ValueIdx Cert.Actor

variable (m : (ℓ : Loc nD τ sig) → Buf (Elt Ideal) ℓ) (ρ : Dev nD → PrngReg)

/-- The zero offsets of a whole-block access, however spelt. -/
theorem hz : (![0, 0] : Fin 2 → Nat) = fun _ => 0 := funext fun a => by fin_cases a <;> rfl

/-- Where each window's block sits at a grid point: the state rows and the output rows move together, the two
    slabs stay. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## Each window's block at a point -/

/-- Row `p` of the state block at point `t` is row `256 t + p` of the states. -/
theorem x_block (c : Dev nD) (t : Fin cfg0.N) (p : Fin 256) (i : Fin 256) (r : Fin 32768) (hr : r.val = 256 * t.val + p.val) :
    (iblk m c 0 t : S256x256.Idx → EReal) (ix2 p i)
      = (m ((c : Thread nD τ).loc main_arg0) : S32768x256.Idx → EReal) (ix2 r i) := by
  obtain ⟨h0, h1, -⟩ := idx_facts t
  unfold iblk
  rw [View.read_apply]
  show V m c main_arg0 _ = _
  rw [V_main_arg0 m c]
  congr 1
  funext a
  apply Fin.ext
  match a with
  | ⟨0, _⟩ => show win0_0.index t (0 : Fin 2) * 256 + 1 * p.val = r.val; rw [h0, hr]; omega
  | ⟨1, _⟩ => show win0_0.index t (1 : Fin 2) * 256 + 1 * i.val = i.val; rw [h1]; omega

/-- The weight slab's block at every point is the slab. -/
theorem W_block (c : Dev nD) (t : Fin cfg0.N) (k : S1280x512.Idx) :
    (iblk m c 1 t : S1280x512.Idx → EReal) k = (m ((c : Thread nD τ).loc main_arg1) : S1280x512.Idx → EReal) k := by
  obtain ⟨-, -, -, -, h0, h1, -, -⟩ := idx_facts t
  unfold iblk
  rw [View.read_apply]
  show V m c main_arg1 _ = _
  rw [V_main_arg1 m c]
  congr 1
  funext a
  apply Fin.ext
  match a with
  | ⟨0, _⟩ => show win0_1.index t (0 : Fin 2) * 1280 + 1 * (k 0).val = (k 0).val; rw [h0]; omega
  | ⟨1, _⟩ => show win0_1.index t (1 : Fin 2) * 512 + 1 * (k 1).val = (k 1).val; rw [h1]; omega

/-- The bias slab's block at every point is the slab. -/
theorem B_block (c : Dev nD) (t : Fin cfg0.N) (k : S8x512.Idx) :
    (iblk m c 2 t : S8x512.Idx → EReal) k = (m ((c : Thread nD τ).loc main_arg2) : S8x512.Idx → EReal) k := by
  obtain ⟨-, -, -, -, -, -, h0, h1⟩ := idx_facts t
  unfold iblk
  rw [View.read_apply]
  show V m c main_arg2 _ = _
  rw [V_main_arg2 m c]
  congr 1
  funext a
  apply Fin.ext
  match a with
  | ⟨0, _⟩ => show win0_2.index t (0 : Fin 2) * 8 + 1 * (k 0).val = (k 0).val; rw [h0]; omega
  | ⟨1, _⟩ => show win0_2.index t (1 : Fin 2) * 512 + 1 * (k 1).val = (k 1).val; rw [h1]; omega

/-! ## The body's loads of the slabs' sections -/

/-- The first layer's weights as loaded: slab rows 0–255. -/
theorem w1_load (c : Dev nD) (t : Fin cfg0.N) (i : Fin 256) (j : Fin 512) :
    View.ld (Val := Elt Ideal) (S := S1280x512) (e' := .f32) (iblk m c 1 t) r0_1 (ix2 i j)
      = (m ((c : Thread nD τ).loc main_arg1) : S1280x512.Idx → EReal) (ix2 (row1 i) j) := by
  show (iblk m c 1 t : S1280x512.Idx → EReal) (r0_1.idx (ix2 i j)) = _
  rw [W_block m c t]
  congr 1
  funext a
  apply Fin.ext
  match a with
  | ⟨0, _⟩ => show 0 + 1 * i.val = i.val; omega
  | ⟨1, _⟩ => show 0 + 1 * j.val = j.val; omega

/-- The second layer's weights as loaded: slab rows 256–767. -/
theorem w2_load (c : Dev nD) (t : Fin cfg0.N) (i : Fin 512) (j : Fin 512) :
    View.ld (Val := Elt Ideal) (S := S1280x512) (e' := .f32) (iblk m c 1 t) r0_2 (ix2 i j)
      = (m ((c : Thread nD τ).loc main_arg1) : S1280x512.Idx → EReal) (ix2 (row2 i) j) := by
  show (iblk m c 1 t : S1280x512.Idx → EReal) (r0_2.idx (ix2 i j)) = _
  rw [W_block m c t]
  congr 1
  funext a
  apply Fin.ext
  match a with
  | ⟨0, _⟩ => show 256 + 1 * i.val = 256 + i.val; omega
  | ⟨1, _⟩ => show 0 + 1 * j.val = j.val; omega

/-- The head's weights as loaded: slab rows 768–1279, all 512 columns. -/
theorem w3_load (c : Dev nD) (t : Fin cfg0.N) (k : Fin 512) (q : Fin 512) :
    View.ld (Val := Elt Ideal) (S := S1280x512) (e' := .f32) (iblk m c 1 t) r0_3 (ix2 k q)
      = (m ((c : Thread nD τ).loc main_arg1) : S1280x512.Idx → EReal) (ix2 (row3 k) q) := by
  show (iblk m c 1 t : S1280x512.Idx → EReal) (r0_3.idx (ix2 k q)) = _
  rw [W_block m c t]
  congr 1
  funext a
  apply Fin.ext
  match a with
  | ⟨0, _⟩ => show 768 + 1 * k.val = 768 + k.val; omega
  | ⟨1, _⟩ => show 0 + 1 * q.val = q.val; omega

/-- The first layer's biases as loaded: row 0 of the bias slab. -/
theorem b1_load (c : Dev nD) (t : Fin cfg0.N) (j : Fin 512) :
    View.ld (Val := Elt Ideal) (S := S8x512) (e' := .f32) (iblk m c 2 t) r0_4 (ix2 (0 : Fin 1) j)
      = (m ((c : Thread nD τ).loc main_arg2) : S8x512.Idx → EReal) (ix2 (0 : Fin 8) j) := by
  show (iblk m c 2 t : S8x512.Idx → EReal) (r0_4.idx (ix2 (0 : Fin 1) j)) = _
  rw [B_block m c t]
  congr 1
  funext a
  apply Fin.ext
  match a with
  | ⟨0, _⟩ => show 0 + 1 * 0 = 0; omega
  | ⟨1, _⟩ => show 0 + 1 * j.val = j.val; omega

/-- The second layer's biases as loaded: row 1 of the bias slab. -/
theorem b2_load (c : Dev nD) (t : Fin cfg0.N) (j : Fin 512) :
    View.ld (Val := Elt Ideal) (S := S8x512) (e' := .f32) (iblk m c 2 t) r0_5 (ix2 (0 : Fin 1) j)
      = (m ((c : Thread nD τ).loc main_arg2) : S8x512.Idx → EReal) (ix2 (1 : Fin 8) j) := by
  show (iblk m c 2 t : S8x512.Idx → EReal) (r0_5.idx (ix2 (0 : Fin 1) j)) = _
  rw [B_block m c t]
  congr 1
  funext a
  apply Fin.ext
  match a with
  | ⟨0, _⟩ => show 1 + 1 * 0 = 1; omega
  | ⟨1, _⟩ => show 0 + 1 * j.val = j.val; omega

/-- The head's biases as loaded: row 2 of the bias slab, all 512 columns. -/
theorem b3_load (c : Dev nD) (t : Fin cfg0.N) (q : Fin 512) :
    View.ld (Val := Elt Ideal) (S := S8x512) (e' := .f32) (iblk m c 2 t) r0_6 (ix2 (0 : Fin 1) q)
      = (m ((c : Thread nD τ).loc main_arg2) : S8x512.Idx → EReal) (ix2 (2 : Fin 8) q) := by
  show (iblk m c 2 t : S8x512.Idx → EReal) (r0_6.idx (ix2 (0 : Fin 1) q)) = _
  rw [B_block m c t]
  congr 1
  funext a
  apply Fin.ext
  match a with
  | ⟨0, _⟩ => show 2 + 1 * 0 = 2; omega
  | ⟨1, _⟩ => show 0 + 1 * q.val = q.val; omega

end Cert.ReferenceIdeal.Hand

end
-- ==== Proof.RefPay.lean ====
/-
  The block a grid point of the reference kernel stores, read at an entry.

  The reference body does the network's three steps on its 256 state rows with weights and biases it has cut out
  of the two slabs, the head at the slab's full width of 512 columns: each product accumulated into zero is the
  plain sum over the contracted index, the bias row is added to every row, and the hidden layers are clamped at
  zero; so entry `(p, q)` of the stored block is the network's output for the block's row `p` and column `q` of
  the head's weights as loaded.
-/
import proofs.«132379_g2000001498861371_pallasbulk_379_10_alg».proof.Proof.Gen.ReferenceIdeal.Skeleton
import proofs.«132379_g2000001498861371_pallasbulk_379_10_alg».proof.Proof.Spec
import Idealize.ShloMosaic.Lib.Pipeline.Value

noncomputable section

open scoped BigOperators

namespace Cert.ReferenceIdeal.Pay

open Cert.ReferenceIdeal Cert.ReferenceIdeal.Gen Idealize.ShloMosaic Idealize.ShloMosaic.ValueIdx Cert.Actor

/-- The reference body's stored block at `(p, q)`: the network's entry of the block's row `p` and slab column `q`. -/
theorem pay_apply (v0 : Vec Ideal S256x256 .f32) (v1 : Vec Ideal S256x512 .f32) (v2 : Vec Ideal S512x512 .f32)
    (v3 : Vec Ideal S512x512 .f32) (v4 : Vec Ideal S1x512 .f32) (v5 : Vec Ideal S1x512 .f32) (v6 : Vec Ideal S1x512 .f32)
    (p : Fin 256) (q : Fin 512) :
    k0_pay1 (F := Ideal) v0 v1 v2 v3 v4 v5 v6 (ix2 p q)
      = rowOut (fun i => v0 (ix2 p i)) (fun i j => v1 (ix2 i j)) (fun j => v4 (ix2 (0 : Fin 1) j))
          (fun i j => v2 (ix2 i j)) (fun j => v5 (ix2 (0 : Fin 1) j)) (fun k => v3 (ix2 k q)) (v6 (ix2 (0 : Fin 1) q)) := by
  unfold k0_pay1 rowOut
  show Ideal.tanh _ = Ideal.tanh _
  refine congrArg Ideal.tanh ?_
  refine (head_apply (φ₁ := .f32) (φ₂ := .f32) dot_S256x512_S512x512_S256x512_1_0_0_1_n_n_wf broadcasts_S1x512_S256x512 _ v3 v6 p q).trans ?_
  refine congrArg (· + v6 (ix2 (0 : Fin 1) q)) (Finset.sum_congr rfl fun k _ => congrArg (· * v3 (ix2 k q)) ?_)
  refine (relu_layer_apply (φ₁ := .f32) (φ₂ := .f32) dot_S256x512_S512x512_S256x512_1_0_0_1_n_n_wf broadcasts_S1x512_S256x512 _ v2 v5 _ Ideal.ofBits_zero_f32 p k).trans ?_
  refine congrArg (fun a => hid a (fun i j => v2 (ix2 i j)) (fun j => v5 (ix2 (0 : Fin 1) j)) k) (funext fun j => ?_)
  exact relu_layer_apply (φ₁ := .f32) (φ₂ := .f32) dot_S256x256_S256x512_S256x512_1_0_0_1_n_n_wf broadcasts_S1x512_S256x512 _ v1 v4 _ Ideal.ofBits_zero_f32 p j

end Cert.ReferenceIdeal.Pay

end
-- ==== Proof.RefValue.lean ====
/-
  The reference program's result after its run is the network's output of the three argument arrays.

  Point `t` of the reference kernel's grid stores a block of 256 rows and 512 columns whose entry `(p, q)` is the
  network's output for state row `256 t + p` and head column `q` of the slab; the 128 blocks cover the 32768 rows of
  a 512-column array. After the region the program keeps the first 128 columns, and an output entry uses its own
  head column only: the result is the network's output.
-/
import proofs.«132379_g2000001498861371_pallasbulk_379_10_alg».proof.Proof.RefBlocks
import proofs.«132379_g2000001498861371_pallasbulk_379_10_alg».proof.Proof.RefPay
import Idealize.ShloMosaic.Lib.StableHlo.Run

noncomputable section

open scoped BigOperators
open Idealize.ShloMosaic Idealize.ShloMosaic.TcCoe Idealize.SL.Sem
open Idealize.ShloMosaic.Pipeline (Dat)

namespace Cert.ReferenceIdeal.Hand

open Cert.ReferenceIdeal Cert.ReferenceIdeal.Gen Idealize.ShloMosaic.ValueIdx Cert.Actor

variable (m : (ℓ : Loc nD τ sig) → Buf (Elt Ideal) ℓ) (ρ : Dev nD → PrngReg)

/-- The full-width output of the arrays core `c` was launched with. -/
abbrev wide (c : Dev nD) : S32768x512.Idx → EReal :=
  Gwide (m ((c : Thread nD τ).loc main_arg0)) (m ((c : Thread nD τ).loc main_arg1)) (m ((c : Thread nD τ).loc main_arg2))

/-- What point `t` writes back is block `t` of the full-width output. -/
theorem flushed_eq (c : Dev nD) (t : Fin cfg0.N) :
    (dats m 0 c).flushed 3 t = ((cfg0.win 3).blk t).view.read (Elt Ideal) (wide m c) := by
  obtain ⟨-, -, h0, h1, -⟩ := idx_facts t
  show (cfg0.win 3).cut (grid0.coords t) ((dats m 0 c).after 3 t) = _
  rw [after0_3]
  unfold out0_3
  rw [View.canon_unit_zero hz]
  funext y
  obtain ⟨p, q, rfl⟩ : ∃ (p : Fin 256) (q : Fin 512), y = ix2 p q := ⟨y 0, y 1, eq_ix2 y⟩
  have hr : 256 * t.val + p.val < 32768 := by
    have := t.isLt; have hN : cfg0.N = 128 := N_0; have := p.isLt; omega
  have hemb : ((cfg0.win 3).blk t).view.emb (ix2 p q)
      = (ix2 (⟨256 * t.val + p.val, hr⟩ : Fin 32768) q : S32768x512.Idx) := by
    funext a
    apply Fin.ext
    match a with
    | ⟨0, _⟩ => show win0_3.index t (0 : Fin 2) * 256 + 1 * p.val = 256 * t.val + p.val; rw [h0]; omega
    | ⟨1, _⟩ => show win0_3.index t (1 : Fin 2) * 512 + 1 * q.val = q.val; rw [h1]; omega
  show k0_pay1 (F := Ideal)
      (View.ld (Val := Elt Ideal) (S := S256x256) (e' := .f32) (iblk m c 0 t) r0_0)
      (View.ld (Val := Elt Ideal) (S := S1280x512) (e' := .f32) (iblk m c 1 t) r0_1)
      (View.ld (Val := Elt Ideal) (S := S1280x512) (e' := .f32) (iblk m c 1 t) r0_2)
      (View.ld (Val := Elt Ideal) (S := S1280x512) (e' := .f32) (iblk m c 1 t) r0_3)
      (View.ld (Val := Elt Ideal) (S := S8x512) (e' := .f32) (iblk m c 2 t) r0_4)
      (View.ld (Val := Elt Ideal) (S := S8x512) (e' := .f32) (iblk m c 2 t) r0_5)
      (View.ld (Val := Elt Ideal) (S := S8x512) (e' := .f32) (iblk m c 2 t) r0_6) (ix2 p q)
    = wide m c (((cfg0.win 3).blk t).view.emb (ix2 p q))
  rw [hemb, View.ld_unit_zero (S := S256x256) hz]
  refine (Pay.pay_apply (iblk m c 0 t)
      (View.ld (Val := Elt Ideal) (S := S1280x512) (e' := .f32) (iblk m c 1 t) r0_1)
      (View.ld (Val := Elt Ideal) (S := S1280x512) (e' := .f32) (iblk m c 1 t) r0_2)
      (View.ld (Val := Elt Ideal) (S := S1280x512) (e' := .f32) (iblk m c 1 t) r0_3)
      (View.ld (Val := Elt Ideal) (S := S8x512) (e' := .f32) (iblk m c 2 t) r0_4)
      (View.ld (Val := Elt Ideal) (S := S8x512) (e' := .f32) (iblk m c 2 t) r0_5)
      (View.ld (Val := Elt Ideal) (S := S8x512) (e' := .f32) (iblk m c 2 t) r0_6) p q).trans ?_
  show rowOut _ _ _ _ _ _ _ = rowOut _ _ _ _ _ _ _
  have e0 : (fun i : Fin 256 => (iblk m c 0 t : S256x256.Idx → EReal) (ix2 p i))
      = fun i => (m ((c : Thread nD τ).loc main_arg0) : S32768x256.Idx → EReal) (ix2 (⟨256 * t.val + p.val, hr⟩ : Fin 32768) i) :=
    funext fun i => x_block m c t p i _ rfl
  have e1 : (fun (i : Fin 256) (j : Fin 512) =>
        View.ld (Val := Elt Ideal) (S := S1280x512) (e' := .f32) (iblk m c 1 t) r0_1 (ix2 i j))
      = fun i j => (m ((c : Thread nD τ).loc main_arg1) : S1280x512.Idx → EReal) (ix2 (row1 i) j) :=
    funext fun i => funext fun j => w1_load m c t i j
  have e2 : (fun (i : Fin 512) (j : Fin 512) =>
        View.ld (Val := Elt Ideal) (S := S1280x512) (e' := .f32) (iblk m c 1 t) r0_2 (ix2 i j))
      = fun i j => (m ((c : Thread nD τ).loc main_arg1) : S1280x512.Idx → EReal) (ix2 (row2 i) j) :=
    funext fun i => funext fun j => w2_load m c t i j
  have e3 : (fun k : Fin 512 =>
        View.ld (Val := Elt Ideal) (S := S1280x512) (e' := .f32) (iblk m c 1 t) r0_3 (ix2 k q))
      = fun k => (m ((c : Thread nD τ).loc main_arg1) : S1280x512.Idx → EReal) (ix2 (row3 k) q) :=
    funext fun k => w3_load m c t k q
  have e4 : (fun j : Fin 512 =>
        View.ld (Val := Elt Ideal) (S := S8x512) (e' := .f32) (iblk m c 2 t) r0_4 (ix2 (0 : Fin 1) j))
      = fun j => (m ((c : Thread nD τ).loc main_arg2) : S8x512.Idx → EReal) (ix2 (0 : Fin 8) j) :=
    funext fun j => b1_load m c t j
  have e5 : (fun j : Fin 512 =>
        View.ld (Val := Elt Ideal) (S := S8x512) (e' := .f32) (iblk m c 2 t) r0_5 (ix2 (0 : Fin 1) j))
      = fun j => (m ((c : Thread nD τ).loc main_arg2) : S8x512.Idx → EReal) (ix2 (1 : Fin 8) j) :=
    funext fun j => b2_load m c t j
  rw [e0, e1, e2, e3, e4, e5, b3_load m c t q]

/-- An index of the full-width array is in point `t`'s block iff its row is among the block's 256 rows. -/
theorem mem_blk (t : Fin cfg0.N) (i : S32768x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v0).slice (win0_3.rect t)).set ↔ _
  rw [View.set_slice_whole, Rect.mem_set_unit]
  exact Iff.rfl

/-- The region's output array after the run is the full-width output: row `r` is in the block of point `r / 256`. -/
theorem final (c : Dev nD) : (dats m 0 c).arrAt 3 cfg0.N = wide m c :=
  (dats m 0 c).arrAt_eq_of_cover 3 (wide m c) (fun t _ => flushed_eq m c t) fun i => by
    have hN : cfg0.N = 128 := N_0
    have hi0 : (i 0).val < 32768 := (i 0).isLt
    have hi1 : (i 1).val < 512 := (i 1).isLt
    have ht : (i 0).val / 256 < cfg0.N := by rw [hN]; omega
    obtain ⟨-, -, h0, h1, -⟩ := idx_facts ⟨(i 0).val / 256, ht⟩
    refine ⟨⟨(i 0).val / 256, ht⟩, flush0_3 _, ?_⟩
    rw [mem_blk]
    intro a
    match a with
    | ⟨0, _⟩ =>
      show win0_3.index ⟨(i 0).val / 256, ht⟩ (0 : Fin 2) * 256 ≤ (i 0).val
        ∧ (i 0).val < win0_3.index ⟨(i 0).val / 256, ht⟩ (0 : Fin 2) * 256 + 256
      rw [h0]; show (i 0).val / 256 * 256 ≤ (i 0).val ∧ (i 0).val < (i 0).val / 256 * 256 + 256; omega
    | ⟨1, _⟩ =>
      show win0_3.index ⟨(i 0).val / 256, ht⟩ (1 : Fin 2) * 512 ≤ (i 1).val
        ∧ (i 1).val < win0_3.index ⟨(i 0).val / 256, ht⟩ (1 : Fin 2) * 512 + 512
      rw [h1]; omega

/-- The result after the lines that follow the region: the first 128 columns of the full-width output. -/
theorem tail_eq (c : Dev nD) :
    (Pipeline.afterTail₀ cfgs (dats m) 0 (V0 m) [hostOps1] c main_v1 : S32768x128.Idx → EReal)
      = G (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = wide m c :=
    (Pipeline.withArrays_arr spec0 launch0.win.arr_inj c _ _ 3).trans (final m c)
  rw [hw]
  exact slice_Gwide _ _ _ _

/-- The reference's run, read: the result ends at the network's output, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Hand

end
-- ==== Proof.lean ====
/-
  The tiled three-layer actor kernel against its reference, over the extended reals.

  Both programs compute, for every state row, two dense layers clamped below at zero and a head under the
  hyperbolic tangent, with weights and biases cut out of the same two slabs. The kernel changes float format
  between its steps and computes the head at 128 columns on blocks of 4096 rows; the reference keeps one format,
  computes the head at the slab's 512 columns on blocks of 256 rows and keeps the first 128 columns afterwards. On
  the extended reals a change of format is the identity, every product is the plain sum over the contracted index
  on both sides, and an output entry depends on its own state row and its own head column only; so both results are
  ONE function of the three arguments (Proof/Spec.lean's `G`), and no law that needs finiteness is used.
  The three frames are the generated frame certificates; the idealization rewrote nothing.
-/
import proofs.«132379_g2000001498861371_pallasbulk_379_10_alg».proof.Defs
import proofs.«132379_g2000001498861371_pallasbulk_379_10_alg».proof.Proof.Gen.Kernel
import proofs.«132379_g2000001498861371_pallasbulk_379_10_alg».proof.Proof.Gen.Kernel.Frame
import proofs.«132379_g2000001498861371_pallasbulk_379_10_alg».proof.Proof.Gen.KernelIdeal
import proofs.«132379_g2000001498861371_pallasbulk_379_10_alg».proof.Proof.Gen.KernelIdeal.Frame
import proofs.«132379_g2000001498861371_pallasbulk_379_10_alg».proof.Proof.Gen.ReferenceIdeal
import proofs.«132379_g2000001498861371_pallasbulk_379_10_alg».proof.Proof.Gen.ReferenceIdeal.Frame
import proofs.«132379_g2000001498861371_pallasbulk_379_10_alg».proof.Proof.Gen.Pre_finite_inputs
import proofs.«132379_g2000001498861371_pallasbulk_379_10_alg».proof.Proof.KernelValue
import proofs.«132379_g2000001498861371_pallasbulk_379_10_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- The idealization rewrote no operation: nothing to preserve. -/
theorem preserves : Cert.preserves_Kernel_KernelIdeal := trivial

/-- Both runs end at the network's output of their arguments, and the arguments agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  show Cert.Actor.G _ _ _ = Cert.Actor.G _ _ _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
